-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S32768x512 : Shape := ⟨2, ![32768, 512]⟩
abbrev S512x256 : Shape := ⟨2, ![512, 256]⟩
abbrev S512 : Shape := ⟨1, ![512]⟩
abbrev S512x512 : Shape := ⟨2, ![512, 512]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512 .f32) (main_arg5 : FVec F S512x512 .f32) (main_arg6 : FVec F S512 .f32) (main_arg7 : FVec F S512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_v33

def fn {F : FTy → Type} [FloatOps F] (main_arg0 : FVec F S32768x256 .f32) (main_arg1 : FVec F S32768x512 .f32) (main_arg2 : FVec F S32768x512 .f32) (main_arg3 : FVec F S512x256 .f32) (main_arg4 : FVec F S512 .f32) (main_arg5 : FVec F S512x512 .f32) (main_arg6 : FVec F S512 .f32) (main_arg7 : FVec F S512 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_v13 main_v16
-- ==== Kernel.lean ====
abbrev S32768x256 : Shape := ⟨2, ![32768, 256]⟩
abbrev S32768x512 : Shape := ⟨2, ![32768, 512]⟩
abbrev S512x256 : Shape := ⟨2, ![512, 256]⟩
abbrev S512 : Shape := ⟨1, ![512]⟩
abbrev S512x512 : Shape := ⟨2, ![512, 512]⟩
abbrev S1024x256 : Shape := ⟨2, ![1024, 256]⟩
abbrev S1024x512 : Shape := ⟨2, ![1024, 512]⟩
abbrev S1x512 : Shape := ⟨2, ![1, 512]⟩

abbrev nBuf : Space → Nat
  | .hbm => 10
  | .vmem => 15
  | .smem => 0
  | _ => 0

abbrev bufTy : (tb : Table) → Fin (tcTables nBuf tb) → BufTy
  | .hbm, ⟨0, _⟩ => ⟨S32768x256, .f32⟩
  | .hbm, ⟨1, _⟩ => ⟨S32768x512, .f32⟩
  | .hbm, ⟨2, _⟩ => ⟨S32768x512, .f32⟩
  | .hbm, ⟨3, _⟩ => ⟨S512x256, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S32768x512, .f32⟩
  | .hbm, ⟨9, _⟩ => ⟨S32768x512, .f32⟩
  | .local _ .vmem, ⟨0, _⟩ => ⟨S1024x256, .f32⟩
  | .local _ .vmem, ⟨1, _⟩ => ⟨S1024x256, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x256, .f32⟩
  | .local _ .vmem, ⟨7, _⟩ => ⟨S512, .f32⟩
  | .local _ .vmem, ⟨8, _⟩ => ⟨S512x512, .f32⟩
  | .local _ .vmem, ⟨9, _⟩ => ⟨S512, .f32⟩
  | .local _ .vmem, ⟨10, _⟩ => ⟨S512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x256_S512x256_0_0 : ∀ a, (![0, 0] : Fin 2 → Nat) a + S512x256.size a ≤ S512x256.size a
  h_S512x256 : 0 < S512x256.numel
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  natLt_1_32 : 1 < 32
  dot_S1024x256_S512x256_S1024x512_1_1_0_0_n_n_wf : DotDims.WF S1024x256 S512x256 S1024x512 [1] [1] [0] [0] [] []
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S32768x512.size a
  hwx0_2 : ∀ i : grid0.Coords, EltTy.bits .f32 = 32 ∨ (Rect.block (s := S32768x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S32768x512.size a
  hwx0_8 : ∀ i : grid0.Coords, EltTy.bits .f32 = 32 ∨ (Rect.block (s := S32768x512) S1024x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S32768x512.size a
  hwx0_9 : ∀ i : grid0.Coords, EltTy.bits .f32 = 32 ∨ (Rect.block (s := S32768x512) S1024x512.size (cc0_transform_9 i) (hinb0_9 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x256 : Shape := ⟨2, ![32768, 256]⟩
abbrev S32768x512 : Shape := ⟨2, ![32768, 512]⟩
abbrev S512x256 : Shape := ⟨2, ![512, 256]⟩
abbrev S512 : Shape := ⟨1, ![512]⟩
abbrev S512x512 : Shape := ⟨2, ![512, 512]⟩
abbrev S1x512 : Shape := ⟨2, ![1, 512]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x512, .f32⟩
  | .hbm, ⟨2, _⟩ => ⟨S32768x512, .f32⟩
  | .hbm, ⟨3, _⟩ => ⟨S512x256, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S32768x512, .f32⟩
  | .hbm, ⟨9, _⟩ => ⟨S1x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S1x512, .f32⟩
  | .hbm, ⟨15, _⟩ => ⟨S32768x512, .f32⟩
  | .hbm, ⟨16, _⟩ => ⟨S32768x512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S1x512, .f32⟩
  | .hbm, ⟨22, _⟩ => ⟨S32768x512, .f32⟩
  | .hbm, ⟨23, _⟩ => ⟨S32768x512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S_, .f32⟩
  | .hbm, ⟨32, _⟩ => ⟨S32768x512, .f32⟩
  | .hbm, ⟨33, _⟩ => ⟨S32768x512, .f32⟩
  | .hbm, ⟨34, _⟩ => ⟨S32768x512, .f32⟩
  | .hbm, ⟨35, _⟩ => ⟨S_, .f32⟩
  | .hbm, ⟨36, _⟩ => ⟨S32768x512, .f32⟩
  | .hbm, ⟨37, _⟩ => ⟨S32768x512, .f32⟩
  | .hbm, ⟨38, _⟩ => ⟨S_, .f32⟩
  | .hbm, ⟨39, _⟩ => ⟨S32768x512, .f32⟩
  | .hbm, ⟨40, _⟩ => ⟨S32768x512, .i1⟩
  | .hbm, ⟨41, _⟩ => ⟨S32768x512, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S512 : S_.BroadcastsInDim S512 (![] : Fin 0 → Fin S512.rank)
  bcast_S_S32768x512 : S_.BroadcastsInDim S32768x512 (![] : Fin 0 → Fin S32768x512.rank)
  dot_S32768x256_S512x256_S32768x512_1_1_0_0_n_n_wf : DotDims.WF S32768x256 S512x256 S32768x512 [1] [1] [0] [0] [] []
  dot_S32768x512_S512x512_S32768x512_1_1_0_0_n_n_wf : DotDims.WF S32768x512 S512x512 S32768x512 [1] [1] [0] [0] [] []

variable [Facts₀]

def dot_S32768x256_S512x256_S32768x512_1_1_0_0_n_n : DotDims S32768x256 S512x256 S32768x512 where
  lhsContracting := [1]
  rhsContracting := [1]
  lhsNonContracting := [0]
  rhsNonContracting := [0]
  lhsBatch := []
  rhsBatch := []
  wf := dot_S32768x256_S512x256_S32768x512_1_1_0_0_n_n_wf
def dot_S32768x512_S512x512_S32768x512_1_1_0_0_n_n : DotDims S32768x512 S512x512 S32768x512 where
  lhsContracting := [1]
  rhsContracting := [1]
  lhsNonContracting := [0]
  rhsNonContracting := [0]
  lhsBatch := []
  rhsBatch := []
  wf := dot_S32768x512_S512x512_S32768x512_1_1_0_0_n_n_wf

class Facts : Prop extends Facts₀ where

variable [Facts]
-- ==== Proof.Neuron.lean ====
/-
  One step of a layer of leaky integrate-and-fire neurons, on the extended reals, one element at a time.

  A neuron `o` of a sample `b` holds a membrane potential `v` and the spike `s` it emitted at the previous step.
  Its synaptic drive is the affine image of the sample's input spikes under the dense weights plus the affine
  image of the sample's previous spikes under the recurrent weights,
      d = ((Σ_k x[b,k] · Wd[o,k]) + bd[o]) + (Σ_h s[b,h] · Wr[o,h]) + br[o],
  its potential decays by `a = exp(-1 / τ[o])` and is pulled towards the drive, with a soft reset by half of the
  previous spike,
      v' = v · a + (1 - a) · d - (1/2) · s,
  and it fires, `s' = 1`, exactly when `v' - 1/2 > 0`, else `s' = 0`.

  The constants are kept as the binary words both programs print (-1, 1, 1/2, 0): the same word on the two sides
  is never evaluated. Sums, products and differences are those of the extended reals, in the association written
  here; no law of the reals is used below, so nothing here asks the inputs to be finite.
-/
import Idealize.ShloMosaic.PureOps.Ideal
import Idealize.ShloMosaic.Lib.ValueIdx

noncomputable section

open scoped BigOperators
open Idealize.ShloMosaic Idealize.ShloMosaic.ValueIdx

namespace Cert.Lif

/-- The decay factor `exp(-1 / τ)` of a neuron whose time constant is `τ` (the quotient and the exponential are the
    extended reals' total ones). -/
def decay (tau : EReal) : EReal := Ideal.exp (Ideal.div (Ideal.ofBits .f32 0xBF800000#32) tau)

/-- The synaptic drive of one neuron of one sample: the sample's input-spike row `xr` against the neuron's dense
    weight row `wd`, plus the dense bias, plus the sample's previous-spike row `sr` against the neuron's recurrent
    weight row `wr`, plus the recurrent bias — added in this order. -/
def drive (xr wd : Fin 256 → EReal) (bd : EReal) (sr wr : Fin 512 → EReal) (br : EReal) : EReal :=
  (∑ k : Fin 256, xr k * wd k) + bd + (∑ h : Fin 512, sr h * wr h) + br

/-- The new membrane potential from the old one `v`, the neuron's previous spike `s`, its time constant and its
    drive `d`. -/
def membrane (v s tau d : EReal) : EReal :=
  v * decay tau + (Ideal.ofBits .f32 0x3F800000#32 - decay tau) * d - Ideal.ofBits .f32 0x3F000000#32 * s

/-- The threshold test `v - 1/2 > 0` as one bit. -/
def above (v : EReal) : BitVec 1 :=
  Ideal.cmp .ogt (v - Ideal.ofBits .f32 0x3F000000#32) (Ideal.ofBits .f32 0x00000000#32)

/-- The new spike: the threshold bit as the number 0 or 1. -/
def fires (v : EReal) : EReal := (((above v).toNat : ℝ) : EReal)

/-- One bit widened to 32 bits without sign and then read as a signed integer is the bit's own value 0 or 1: the
    two ways of turning a comparison into a number agree. -/
theorem widened_bit (c : BitVec 1) : (((c.setWidth 32).toInt : ℝ) : EReal) = ((c.toNat : ℝ) : EReal) := by
  by_cases h : c = 1#1
  · subst h; norm_num
  · have h0 := eq_zero_of_ne_one h
    subst h0; norm_num

/-! ## The whole arrays -/

abbrev SIn : Shape := ⟨2, ![32768, 256]⟩
abbrev SState : Shape := ⟨2, ![32768, 512]⟩
abbrev SWd : Shape := ⟨2, ![512, 256]⟩
abbrev SWr : Shape := ⟨2, ![512, 512]⟩
abbrev SVec : Shape := ⟨1, ![512]⟩

/-- The drive of every neuron of every sample, from the whole arrays. -/
def driveArr (x : SIn.Idx → EReal) (s : SState.Idx → EReal) (Wd : SWd.Idx → EReal) (bd : SVec.Idx → EReal)
    (Wr : SWr.Idx → EReal) (br : SVec.Idx → EReal) : SState.Idx → EReal := fun i =>
  drive (fun k => x (ix2 (i 0) k)) (fun k => Wd (ix2 (i 1) k)) (bd (ix1 (i 1)))
    (fun h => s (ix2 (i 0) h)) (fun h => Wr (ix2 (i 1) h)) (br (ix1 (i 1)))

/-- The new membrane potentials, from the whole arrays. -/
def membraneArr (x : SIn.Idx → EReal) (v s : SState.Idx → EReal) (Wd : SWd.Idx → EReal) (bd : SVec.Idx → EReal)
    (Wr : SWr.Idx → EReal) (br tau : SVec.Idx → EReal) : SState.Idx → EReal := fun i =>
  membrane (v i) (s i) (tau (ix1 (i 1))) (driveArr x s Wd bd Wr br i)

/-- The new spikes, from the whole arrays. -/
def firesArr (x : SIn.Idx → EReal) (v s : SState.Idx → EReal) (Wd : SWd.Idx → EReal) (bd : SVec.Idx → EReal)
    (Wr : SWr.Idx → EReal) (br tau : SVec.Idx → EReal) : SState.Idx → EReal := fun i =>
  fires (membraneArr x v s Wd bd Wr br tau i)

end Cert.Lif

end
-- ==== Proof.ReferenceLaw.lean ====
/-
  The reference program computes the neuron update law.

  Its host operations, read one at a time at an index (the generated read-at-an-index lemmas), compose to the
  drive, the new membrane potential and the new spike of `Cert.Lif`: the two `dot_general`s are the two row-by-row
  sums, every broadcast of a per-neuron vector reads that vector at the neuron's coordinate, the host's quotient and
  exponential are the extended reals' total ones, and converting the comparison's bit to a float reads the bit as 0 or 1.
-/
import proofs.«100015_j49082886259318_1_alg».proof.Proof.Gen.ReferenceIdeal.Read
import proofs.«100015_j49082886259318_1_alg».proof.Proof.Neuron

noncomputable section

open scoped BigOperators
open Idealize.ShloMosaic Idealize.ShloMosaic.ValueIdx

namespace Cert.Lif.Reference

open Cert.ReferenceIdeal Cert.ReferenceIdeal.Read Cert.Lif

variable (x0 : (⟨S32768x256, .f32⟩ : BufTy).Contents (Elt Ideal)) (x1 x2 : (⟨S32768x512, .f32⟩ : BufTy).Contents (Elt Ideal))
  (x3 : (⟨S512x256, .f32⟩ : BufTy).Contents (Elt Ideal)) (x4 : (⟨S512, .f32⟩ : BufTy).Contents (Elt Ideal))
  (x5 : (⟨S512x512, .f32⟩ : BufTy).Contents (Elt Ideal)) (x6 x7 : (⟨S512, .f32⟩ : BufTy).Contents (Elt Ideal))

/-- The stage that adds the two affine images is the drive: each `dot_general` contracts the sample's row with the
    neuron's weight row, each bias is read at the neuron's coordinate. -/
theorem drive_eq (i : S32768x512.Idx) :
    val_main_v8 (F := Ideal) x0 x2 x3 x4 x5 x6 i = driveArr x0 x2 x3 x4 x5 x6 i := by
  have el0 : ∀ k, lidx_main_v0 i k = ix2 (i 0) k := fun k => funext fun a => by
    match a with | ⟨0, _⟩ => rfl | ⟨1, _⟩ => rfl
  have er0 : ∀ k, ridx_main_v0 i k = ix2 (i 1) k := fun k => funext fun a => by
    match a with | ⟨0, _⟩ => rfl | ⟨1, _⟩ => rfl
  have el4 : ∀ k, lidx_main_v4 i k = ix2 (i 0) k := fun k => funext fun a => by
    match a with | ⟨0, _⟩ => rfl | ⟨1, _⟩ => rfl
  have er4 : ∀ k, ridx_main_v4 i k = ix2 (i 1) k := fun k => funext fun a => by
    match a with | ⟨0, _⟩ => rfl | ⟨1, _⟩ => rfl
  have eb : idx_main_v1 (idx_main_v2 i) = ix1 (i 1) := funext fun a => by
    match a with | ⟨0, _⟩ => rfl
  have ec : idx_main_v6 (idx_main_v7 i) = ix1 (i 1) := funext fun a => by
    match a with | ⟨0, _⟩ => rfl
  rw [val_main_v8_apply, val_main_v5_apply, val_main_v3_apply, val_main_v0_apply, val_main_v2_apply, val_main_v1_apply,
    val_main_v4_apply, val_main_v7_apply, val_main_v6_apply]
  simp only [el0, er0, el4, er4, eb, ec]
  rfl

/-- The first result of the reference is the new membrane potential. -/
theorem membrane_eq : val_main_v23 (F := Ideal) x0 x1 x2 x3 x4 x5 x6 x7 = membraneArr x0 x1 x2 x3 x4 x5 x6 x7 := by
  funext i
  have ea : idx_main_v12 (idx_main_v13 i) = ix1 (i 1) := funext fun a => by
    match a with | ⟨0, _⟩ => rfl
  have eb : idx_main_v17 (idx_main_v18 i) = ix1 (i 1) := funext fun a => by
    match a with | ⟨0, _⟩ => rfl
  simp only [val_main_v23_apply, val_main_v20_apply, val_main_v14_apply, val_main_v13_apply, val_main_v12_apply,
    val_main_v11_apply, val_main_v10_apply, val_main_v9_apply, val_main_cst_apply, val_main_v19_apply,
    val_main_v18_apply, val_main_v17_apply, val_main_v16_apply, val_main_v15_apply, val_main_cst_0_apply,
    val_main_v22_apply, val_main_v21_apply, val_main_cst_1_apply, drive_eq, ea, eb]
  rfl

/-- The second result of the reference is the new spike. -/
theorem fires_eq : val_main_v28 (F := Ideal) x0 x1 x2 x3 x4 x5 x6 x7 = firesArr x0 x1 x2 x3 x4 x5 x6 x7 := by
  funext i
  rw [val_main_v28_apply, val_main_v27_apply, val_main_v25_apply, val_main_v24_apply, val_main_cst_2_apply,
    val_main_v26_apply, val_main_cst_3_apply, membrane_eq]
  rfl

end Cert.Lif.Reference

end
-- ==== Proof.KernelLaw.lean ====
/-
  The kernel's body computes the neuron update law on one block of 1024 samples.

  The body loads a block of input spikes, of membrane potentials and of previous spikes, and the whole weights,
  biases and time constants; it stores two values. Read at one element `(r, o)` of the block — sample `r`, neuron
  `o` — the first stored value is the new membrane potential of `Cert.Lif` and the second the new spike: each
  matrix product into a zero accumulator is the sum over the contracted axis of row `r` of the left block against
  row `o` of the weights (the narrowing of the operands to a shorter float format is the identity on the extended
  reals), a per-neuron vector lifted to a row and then spread over the block reads the vector at `o`, and the
  comparison's bit widened to a word and converted as a signed integer is the bit's value.
-/
import proofs.«100015_j49082886259318_1_alg».proof.Proof.Gen.KernelIdeal.Skeleton
import proofs.«100015_j49082886259318_1_alg».proof.Proof.Neuron
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.Lif.Kernel

open Cert.KernelIdeal Cert.KernelIdeal.Gen Cert.Lif

/-! ## The two matrix products -/

/-! The operand coordinates of the product of the input block with the dense weights: the left operand is read at
    the output's row and the contracted coordinate, the right at the output's column and the contracted coordinate. -/

theorem lhs_dense_0 (i : S1024x512.Idx) (q : dot_S1024x256_S512x256_S1024x512_1_1_0_0_n_n.contr.Idx) :
    (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem lhs_dense_1 (i : S1024x512.Idx) (q : dot_S1024x256_S512x256_S1024x512_1_1_0_0_n_n.contr.Idx) :
    (dot_S1024x256_S512x256_S1024x512_1_1_0_0_n_n.lhsIdx i q 1).val = (q ⟨0, by decide⟩).val :=
  dot_S1024x256_S512x256_S1024x512_1_1_0_0_n_n.lhsIdx_val_of_single rfl i q
theorem rhs_dense_0 (i : S1024x512.Idx) (q : dot_S1024x256_S512x256_S1024x512_1_1_0_0_n_n.contr.Idx) :
    (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
theorem rhs_dense_1 (i : S1024x512.Idx) (q : dot_S1024x256_S512x256_S1024x512_1_1_0_0_n_n.contr.Idx) :
    (dot_S1024x256_S512x256_S1024x512_1_1_0_0_n_n.rhsIdx i q 1).val = (q ⟨0, by decide⟩).val :=
  dot_S1024x256_S512x256_S1024x512_1_1_0_0_n_n.rhsIdx_val_of_single rfl i q

/-! The same for the product of the previous-spike block with the recurrent weights. -/

theorem lhs_rec_0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhs_rec_1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
theorem rhs_rec_0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhs_rec_1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

/-- The product of the input block with the dense weights, into zeros, at `(r, o)`: row `r` of the block against row `o`
    of the weights. -/
theorem dense_apply (x : FVec Ideal S1024x256 .bf16) (w : FVec Ideal S512x256 .bf16) (r : Fin 1024) (o : Fin 512) :
    matmul dot_S1024x256_S512x256_S1024x512_1_1_0_0_n_n none x w (constant S1024x512 .f32 0x00000000#32) (ix2 r o)
      = ∑ k : Fin 256, x (ix2 r k) * w (ix2 o k) := by
  simp only [matmul]
  rw [Ideal.matmul_constant_zero_apply, ← Equiv.sum_comp (ValueIdx.contrEquiv1 dot_S1024x256_S512x256_S1024x512_1_1_0_0_n_n 256 rfl rfl).symm]
  refine Finset.sum_congr rfl fun k _ => ?_
  have hk := ValueIdx.contrEquiv1_symm_val dot_S1024x256_S512x256_S1024x512_1_1_0_0_n_n 256 rfl rfl k
  have el : dot_S1024x256_S512x256_S1024x512_1_1_0_0_n_n.lhsIdx (ix2 r o) ((ValueIdx.contrEquiv1 dot_S1024x256_S512x256_S1024x512_1_1_0_0_n_n 256 rfl rfl).symm k) = ix2 r k := funext fun a => Fin.ext (by
    match a with
    | ⟨0, _⟩ => exact lhs_dense_0 _ _
    | ⟨1, _⟩ => exact (lhs_dense_1 _ _).trans hk)
  have er : dot_S1024x256_S512x256_S1024x512_1_1_0_0_n_n.rhsIdx (ix2 r o) ((ValueIdx.contrEquiv1 dot_S1024x256_S512x256_S1024x512_1_1_0_0_n_n 256 rfl rfl).symm k) = ix2 o k := funext fun a => Fin.ext (by
    match a with
    | ⟨0, _⟩ => exact rhs_dense_0 _ _
    | ⟨1, _⟩ => exact (rhs_dense_1 _ _).trans hk)
  rw [el, er]

/-- The product of the previous-spike block with the recurrent weights, into zeros, at `(r, o)`. -/
theorem rec_apply (x : FVec Ideal S1024x512 .bf16) (w : FVec Ideal S512x512 .bf16) (r : Fin 1024) (o : Fin 512) :
    matmul dot_S1024x512_S512x512_S1024x512_1_1_0_0_n_n none x w (constant S1024x512 .f32 0x00000000#32) (ix2 r o)
      = ∑ k : Fin 512, x (ix2 r k) * w (ix2 o k) := by
  simp only [matmul]
  rw [Ideal.matmul_constant_zero_apply, ← Equiv.sum_comp (ValueIdx.contrEquiv1 dot_S1024x512_S512x512_S1024x512_1_1_0_0_n_n 512 rfl rfl).symm]
  refine Finset.sum_congr rfl fun k _ => ?_
  have hk := ValueIdx.contrEquiv1_symm_val dot_S1024x512_S512x512_S1024x512_1_1_0_0_n_n 512 rfl rfl k
  have el : dot_S1024x512_S512x512_S1024x512_1_1_0_0_n_n.lhsIdx (ix2 r o) ((ValueIdx.contrEquiv1 dot_S1024x512_S512x512_S1024x512_1_1_0_0_n_n 512 rfl rfl).symm k) = ix2 r k := funext fun a => Fin.ext (by
    match a with
    | ⟨0, _⟩ => exact lhs_rec_0 _ _
    | ⟨1, _⟩ => exact (lhs_rec_1 _ _).trans hk)
  have er : dot_S1024x512_S512x512_S1024x512_1_1_0_0_n_n.rhsIdx (ix2 r o) ((ValueIdx.contrEquiv1 dot_S1024x512_S512x512_S1024x512_1_1_0_0_n_n 512 rfl rfl).symm k) = ix2 o k := funext fun a => Fin.ext (by
    match a with
    | ⟨0, _⟩ => exact rhs_rec_0 _ _
    | ⟨1, _⟩ => exact (rhs_rec_1 _ _).trans hk)
  rw [el, er]

/-! ## The stored values at one element -/

/-- The exponential of a vector reads through at an index. -/
theorem exp_apply {s : Shape} {φ : FTy} (a : FVec Ideal s φ) (i : s.Idx) : exp a i = Ideal.exp (a i) := rfl

/-- A per-neuron vector lifted to one row and spread over the block's 1024 rows reads, at `(r, o)`, the vector at `o`. -/
theorem spread_apply (v : FVec Ideal S512 .f32) (r : Fin 1024) (o : Fin 512) :
    broadcastTo S1024x512 (shapeCast S1x512 v shapeCasts_S512_S1x512) broadcasts_S1x512_S1024x512 (ix2 r o) = v (ix1 o) := by
  rw [broadcastTo_1b_ab_apply, shapeCast_a_1a_apply]

/-- The first stored value at `(r, o)` is the new membrane potential of sample `r`'s neuron `o`, from the blocks'
    row `r` and the per-neuron row `o` of the weights, biases and time constants. -/
theorem potential_apply (v0 : Vec Ideal S1024x256 .f32) (v2 : Vec Ideal S1024x512 .f32) (v4 : Vec Ideal S512x256 .f32)
    (v6 : Vec Ideal S512x512 .f32) (v10 v12 v19 : Vec Ideal S512 .f32) (v24 v25 : Vec Ideal S1024x512 .f32)
    (r : Fin 1024) (o : Fin 512) :
    k0_pay2 (F := Ideal) v0 v2 v4 v6 v10 v12 v19 v24 v25 (ix2 r o)
      = membrane (v24 (ix2 r o)) (v25 (ix2 r o)) (v19 (ix1 o))
          (drive (fun k => v0 (ix2 r k)) (fun k => v4 (ix2 o k)) (v10 (ix1 o))
            (fun h => v2 (ix2 r h)) (fun h => v6 (ix2 o h)) (v12 (ix1 o))) := by
  unfold k0_pay2
  simp only [subf_apply, addf_apply, mulf_apply, spread_apply, broadcastTo_1b_ab_apply, shapeCast_a_1a_apply,
    dense_apply, rec_apply, truncf_apply, exp_apply, divf_apply, broadcast_apply]
  rfl

/-- The second stored value at `(r, o)` is the new spike: the threshold bit of the new membrane potential, widened
    to a word and converted as a signed integer, is that bit's value. -/
theorem spike_apply (v0 : Vec Ideal S1024x256 .f32) (v2 : Vec Ideal S1024x512 .f32) (v4 : Vec Ideal S512x256 .f32)
    (v6 : Vec Ideal S512x512 .f32) (v10 v12 v19 : Vec Ideal S512 .f32) (v24 v25 : Vec Ideal S1024x512 .f32)
    (r : Fin 1024) (o : Fin 512) :
    k0_pay1 (F := Ideal) (k0_pay3 (F := Ideal) v0 v2 v4 v6 v10 v12 v19 v24 v25) (ix2 r o)
      = fires (membrane (v24 (ix2 r o)) (v25 (ix2 r o)) (v19 (ix1 o))
          (drive (fun k => v0 (ix2 r k)) (fun k => v4 (ix2 o k)) (v10 (ix1 o))
            (fun h => v2 (ix2 r h)) (fun h => v6 (ix2 o h)) (v12 (ix1 o)))) := by
  rw [← potential_apply]
  exact widened_bit _

end Cert.Lif.Kernel

end
-- ==== Proof.Layer.lean ====
/-
  From the blocks to the whole arrays: what the kernel leaves in its two result arrays.

  The grid has 32 points. At point `t` the three sample-indexed inputs (input spikes, membrane potentials, previous
  spikes) are staged as their rows `1024·t … 1024·t + 1023`, the five per-neuron inputs (the two weight matrices, the
  two biases, the time constants) whole, and the two results are written back to the same rows. Since the neuron
  update of a sample reads only that sample's rows, what point `t` writes back is rows `1024·t …` of the update
  law applied to the whole arrays; the 32 blocks of rows cover the array, so after the run each result array IS the
  law of the argument arrays.
-/
import proofs.«100015_j49082886259318_1_alg».proof.Proof.Gen.KernelIdeal.Value
import proofs.«100015_j49082886259318_1_alg».proof.Proof.KernelLaw

noncomputable section

open scoped BigOperators
open Idealize.ShloMosaic Idealize.ShloMosaic.TcCoe Idealize.SL.Sem Idealize.ShloMosaic.ValueIdx
open Idealize.ShloMosaic.Pipeline (Dat)

namespace Cert.Lif.Layer

open Cert.KernelIdeal Cert.KernelIdeal.Gen Cert.KernelIdeal.Value Cert.Lif Cert.Lif.Kernel

/-! ## Rows of a sample-indexed array -/

/-- Row `r` of block `n` is row `1024·n + r` of the array. -/
def rowOf (n : Fin 32) (r : Fin 1024) : Fin 32768 := ⟨n.val * 1024 + r.val, by have := n.isLt; have := r.isLt; omega⟩

/-- The rows `1024·n … 1024·n + 1023` of an array of input spikes. -/
def rowsIn (n : Fin 32) (X : SIn.Idx → EReal) : (⟨2, ![1024, 256]⟩ : Shape).Idx → EReal :=
  fun y => X (ix2 (rowOf n (y 0)) (y 1))

/-- The rows `1024·n … 1024·n + 1023` of an array of per-sample, per-neuron state. -/
def rowsState (n : Fin 32) (X : SState.Idx → EReal) : (⟨2, ![1024, 512]⟩ : Shape).Idx → EReal :=
  fun y => X (ix2 (rowOf n (y 0)) (y 1))

/-- The body's first stored value on block `n` of rows is the new membrane potential of the whole arrays at those
    rows: a sample's update reads that sample's rows only. -/
theorem potential_rows (n : Fin 32) (x : SIn.Idx → EReal) (v s : SState.Idx → EReal) (Wd : SWd.Idx → EReal)
    (bd : SVec.Idx → EReal) (Wr : SWr.Idx → EReal) (br tau : SVec.Idx → EReal) (r : Fin 1024) (o : Fin 512) :
    k0_pay2 (F := Ideal) (rowsIn n x) (rowsState n s) Wd Wr bd br tau (rowsState n v) (rowsState n s) (ix2 r o)
      = membraneArr x v s Wd bd Wr br tau (ix2 (rowOf n r) o) := by
  rw [potential_apply]
  rfl

/-- The same for the second stored value and the new spike. -/
theorem spike_rows (n : Fin 32) (x : SIn.Idx → EReal) (v s : SState.Idx → EReal) (Wd : SWd.Idx → EReal)
    (bd : SVec.Idx → EReal) (Wr : SWr.Idx → EReal) (br tau : SVec.Idx → EReal) (r : Fin 1024) (o : Fin 512) :
    k0_pay1 (F := Ideal) (k0_pay3 (F := Ideal) (rowsIn n x) (rowsState n s) Wd Wr bd br tau (rowsState n v) (rowsState n s)) (ix2 r o)
      = firesArr x v s Wd bd Wr br tau (ix2 (rowOf n r) o) := by
  rw [spike_apply]
  rfl

/-! ## The windows' blocks -/

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The printed index maps, decided over the 32 points: the sample-indexed windows (0, 1, 2, and the results 8, 9)
    are at block row `t`, block column 0; the per-neuron windows (3 … 7) stay at block 0. -/
theorem tiles : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ win0_7.index t (0 : Fin 1) = 0
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Window 0's block at point `t` is rows `1024·t … 1024·t + 1023` of its array. -/
theorem block0_eq (c : Dev nD) (t : Fin cfg0.N) : iblk m c 0 t = rowsIn (t.cast N_0) (V m c main_arg0) := by
  obtain ⟨e0, e1⟩ := (tiles t).1
  funext y
  show V m c main_arg0 (((cfg0.win 0).blk t).view.emb y) = V m c main_arg0 _
  refine congrArg _ (funext fun a => Fin.ext ?_)
  match a with
  | ⟨0, _⟩ => show win0_0.index t (0 : Fin 2) * 1024 + 1 * (y 0).val = t.val * 1024 + (y 0).val; omega
  | ⟨1, _⟩ => show win0_0.index t (1 : Fin 2) * 256 + 1 * (y 1).val = (y 1).val; omega

/-- Window 1's block at point `t` is rows `1024·t … 1024·t + 1023` of its array. -/
theorem block1_eq (c : Dev nD) (t : Fin cfg0.N) : iblk m c 1 t = rowsState (t.cast N_0) (V m c main_arg1) := by
  obtain ⟨e0, e1⟩ := (tiles t).2.1
  funext y
  show V m c main_arg1 (((cfg0.win 1).blk t).view.emb y) = V m c main_arg1 _
  refine congrArg _ (funext fun a => Fin.ext ?_)
  match a with
  | ⟨0, _⟩ => show win0_1.index t (0 : Fin 2) * 1024 + 1 * (y 0).val = t.val * 1024 + (y 0).val; omega
  | ⟨1, _⟩ => show win0_1.index t (1 : Fin 2) * 512 + 1 * (y 1).val = (y 1).val; omega

/-- Window 2's block at point `t` is rows `1024·t … 1024·t + 1023` of its array. -/
theorem block2_eq (c : Dev nD) (t : Fin cfg0.N) : iblk m c 2 t = rowsState (t.cast N_0) (V m c main_arg2) := by
  obtain ⟨e0, e1⟩ := (tiles t).2.2.1
  funext y
  show V m c main_arg2 (((cfg0.win 2).blk t).view.emb y) = V m c main_arg2 _
  refine congrArg _ (funext fun a => Fin.ext ?_)
  match a with
  | ⟨0, _⟩ => show win0_2.index t (0 : Fin 2) * 1024 + 1 * (y 0).val = t.val * 1024 + (y 0).val; omega
  | ⟨1, _⟩ => show win0_2.index t (1 : Fin 2) * 512 + 1 * (y 1).val = (y 1).val; omega

/-- Window 3's one block is its whole array. -/
theorem block3_eq (c : Dev nD) (t : Fin cfg0.N) : iblk m c 3 t = V m c main_arg3 := by
  obtain ⟨e0, e1⟩ := (tiles t).2.2.2.1
  funext y
  show V m c main_arg3 (((cfg0.win 3).blk t).view.emb y) = V m c main_arg3 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 256 + 1 * (y 1).val = (y 1).val; omega

/-- Window 4's one block is its whole array. -/
theorem block4_eq (c : Dev nD) (t : Fin cfg0.N) : iblk m c 4 t = V m c main_arg4 := by
  have e0 := (tiles t).2.2.2.2.1
  funext y
  show V m c main_arg4 (((cfg0.win 4).blk t).view.emb y) = V m c main_arg4 y
  refine congrArg _ (funext fun a => Fin.ext ?_)
  match a with
  | ⟨0, _⟩ => show win0_4.index t (0 : Fin 1) * 512 + 1 * (y 0).val = (y 0).val; omega

/-- Window 5's one block is its whole array. -/
theorem block5_eq (c : Dev nD) (t : Fin cfg0.N) : iblk m c 5 t = V m c main_arg5 := by
  obtain ⟨e0, e1⟩ := (tiles t).2.2.2.2.2.1
  funext y
  show V m c main_arg5 (((cfg0.win 5).blk t).view.emb y) = V m c main_arg5 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

/-- Window 6's one block is its whole array. -/
theorem block6_eq (c : Dev nD) (t : Fin cfg0.N) : iblk m c 6 t = V m c main_arg6 := by
  have e0 := (tiles t).2.2.2.2.2.2.1
  funext y
  show V m c main_arg6 (((cfg0.win 6).blk t).view.emb y) = V m c main_arg6 y
  refine congrArg _ (funext fun a => Fin.ext ?_)
  match a with
  | ⟨0, _⟩ => show win0_6.index t (0 : Fin 1) * 512 + 1 * (y 0).val = (y 0).val; omega

/-- Window 7's one block is its whole array. -/
theorem block7_eq (c : Dev nD) (t : Fin cfg0.N) : iblk m c 7 t = V m c main_arg7 := by
  have e0 := (tiles t).2.2.2.2.2.2.2.1
  funext y
  show V m c main_arg7 (((cfg0.win 7).blk t).view.emb y) = V m c main_arg7 y
  refine congrArg _ (funext fun a => Fin.ext ?_)
  match a with
  | ⟨0, _⟩ => show win0_7.index t (0 : Fin 1) * 512 + 1 * (y 0).val = (y 0).val; omega

/-! ## The first result: the new membrane potentials -/

/-- An array index lies in point `t`'s block of output window 8 iff its row is one of the point's 1024. -/
theorem mem_block8 (t : Fin cfg0.N) (i : S32768x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v0_0).slice (win0_8.rect t)).set ↔ _
  rw [View.set_slice_whole, Rect.mem_set_unit]
  exact Iff.rfl

/-- Every array index lies in the block of the point its row belongs to: the 32 blocks cover the array. -/
theorem cover8 (i : S32768x512.Idx) : ∃ t : Fin cfg0.N, (cfg0.win 8).flush t = true ∧ i ∈ ((cfg0.win 8).blk t).view.set := by
  have hi0 : (i 0).val < 32768 := (i 0).isLt
  have hi1 : (i 1).val < 512 := (i 1).isLt
  let t : Fin cfg0.N := (⟨(i 0).val / 1024, by omega⟩ : Fin 32).cast N_0.symm
  have ht : t.val = (i 0).val / 1024 := rfl
  obtain ⟨e0, e1⟩ := (tiles t).2.2.2.2.2.2.2.2.1
  refine ⟨t, flush0_8 t, ?_⟩
  rw [mem_block8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 512 ≤ (i 1).val ∧ (i 1).val < win0_8.index t (1 : Fin 2) * 512 + 512; omega

/-- What point `t` writes back to the first result is rows `1024·t …` of the new membrane potentials of the arrays as
    the region finds them. -/
theorem flushed8_eq (c : Dev nD) (t : Fin cfg0.N) :
    (dats m 0 c).flushed 8 t = ((cfg0.win 8).blk t).view.read (Elt Ideal) (membraneArr (V m c main_arg0) (V m c main_arg1) (V m c main_arg2) (V m c main_arg3) (V m c main_arg4) (V m c main_arg5) (V m c main_arg6) (V m c main_arg7)) := by
  rw [flushed8]
  unfold out0_8
  rw [View.canon_unit_zero origin2]
  simp only [View.ld_unit_zero (S := S1024x256) origin2, View.ld_unit_zero (S := S1024x512) origin2,
    View.ld_unit_zero (S := S512x256) origin2, View.ld_unit_zero (S := S512x512) origin2, View.ld_unit_zero (S := S512) origin1]
  rw [block0_eq, block1_eq, block2_eq, block3_eq, block4_eq, block5_eq, block6_eq, block7_eq]
  obtain ⟨e0, e1⟩ := (tiles t).2.2.2.2.2.2.2.2.1
  funext j
  have hj : ((cfg0.win 8).blk t).view.emb j = ix2 (rowOf (t.cast N_0) (j 0)) (j 1) := by
    funext a; apply Fin.ext
    match a with
    | ⟨0, _⟩ => show win0_8.index t (0 : Fin 2) * 1024 + 1 * (j 0).val = t.val * 1024 + (j 0).val; omega
    | ⟨1, _⟩ => show win0_8.index t (1 : Fin 2) * 512 + 1 * (j 1).val = (j 1).val; omega
  show _ = membraneArr (V m c main_arg0) (V m c main_arg1) (V m c main_arg2) (V m c main_arg3) (V m c main_arg4) (V m c main_arg5) (V m c main_arg6) (V m c main_arg7) (((cfg0.win 8).blk t).view.emb j)
  rw [hj]
  exact (congrArg _ (eq_ix2 j)).trans (potential_rows (t.cast N_0) (V m c main_arg0) (V m c main_arg1) (V m c main_arg2) (V m c main_arg3) (V m c main_arg4) (V m c main_arg5) (V m c main_arg6) (V m c main_arg7) (j 0) (j 1))

/-- After the run the first result array is the new membrane potentials of the argument arrays. -/
theorem final8 (c : Dev nD) : (dats m 0 c).arrAt 8 cfg0.N = membraneArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 _ (fun t _ => flushed8_eq m c t) cover8

/-! ## The second result: the new spikes -/

/-- An array index lies in point `t`'s block of output window 9 iff its row is one of the point's 1024. -/
theorem mem_block9 (t : Fin cfg0.N) (i : S32768x512.Idx) :
    i ∈ ((cfg0.win 9).blk t).view.set ↔ ∀ a : Fin 2, win0_9.index t a * S1024x512.size a ≤ (i a).val ∧ (i a).val < win0_9.index t a * S1024x512.size a + S1024x512.size a := by
  show i ∈ ((View.whole main_v0_1).slice (win0_9.rect t)).set ↔ _
  rw [View.set_slice_whole, Rect.mem_set_unit]
  exact Iff.rfl

/-- Every array index lies in the block of the point its row belongs to: the 32 blocks cover the array. -/
theorem cover9 (i : S32768x512.Idx) : ∃ t : Fin cfg0.N, (cfg0.win 9).flush t = true ∧ i ∈ ((cfg0.win 9).blk t).view.set := by
  have hi0 : (i 0).val < 32768 := (i 0).isLt
  have hi1 : (i 1).val < 512 := (i 1).isLt
  let t : Fin cfg0.N := (⟨(i 0).val / 1024, by omega⟩ : Fin 32).cast N_0.symm
  have ht : t.val = (i 0).val / 1024 := rfl
  obtain ⟨e0, e1⟩ := (tiles t).2.2.2.2.2.2.2.2.2
  refine ⟨t, flush0_9 t, ?_⟩
  rw [mem_block9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 512 ≤ (i 1).val ∧ (i 1).val < win0_9.index t (1 : Fin 2) * 512 + 512; omega

/-- What point `t` writes back to the second result is rows `1024·t …` of the new spikes. -/
theorem flushed9_eq (c : Dev nD) (t : Fin cfg0.N) :
    (dats m 0 c).flushed 9 t = ((cfg0.win 9).blk t).view.read (Elt Ideal) (firesArr (V m c main_arg0) (V m c main_arg1) (V m c main_arg2) (V m c main_arg3) (V m c main_arg4) (V m c main_arg5) (V m c main_arg6) (V m c main_arg7)) := by
  rw [flushed9]
  unfold out0_9
  rw [View.canon_unit_zero origin2]
  simp only [View.ld_unit_zero (S := S1024x256) origin2, View.ld_unit_zero (S := S1024x512) origin2,
    View.ld_unit_zero (S := S512x256) origin2, View.ld_unit_zero (S := S512x512) origin2, View.ld_unit_zero (S := S512) origin1]
  rw [block0_eq, block1_eq, block2_eq, block3_eq, block4_eq, block5_eq, block6_eq, block7_eq]
  obtain ⟨e0, e1⟩ := (tiles t).2.2.2.2.2.2.2.2.2
  funext j
  have hj : ((cfg0.win 9).blk t).view.emb j = ix2 (rowOf (t.cast N_0) (j 0)) (j 1) := by
    funext a; apply Fin.ext
    match a with
    | ⟨0, _⟩ => show win0_9.index t (0 : Fin 2) * 1024 + 1 * (j 0).val = t.val * 1024 + (j 0).val; omega
    | ⟨1, _⟩ => show win0_9.index t (1 : Fin 2) * 512 + 1 * (j 1).val = (j 1).val; omega
  show _ = firesArr (V m c main_arg0) (V m c main_arg1) (V m c main_arg2) (V m c main_arg3) (V m c main_arg4) (V m c main_arg5) (V m c main_arg6) (V m c main_arg7) (((cfg0.win 9).blk t).view.emb j)
  rw [hj]
  exact (congrArg _ (eq_ix2 j)).trans (spike_rows (t.cast N_0) (V m c main_arg0) (V m c main_arg1) (V m c main_arg2) (V m c main_arg3) (V m c main_arg4) (V m c main_arg5) (V m c main_arg6) (V m c main_arg7) (j 0) (j 1))

/-- After the run the second result array is the new spikes of the argument arrays. -/
theorem final9 (c : Dev nD) : (dats m 0 c).arrAt 9 cfg0.N = firesArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 9 _ (fun t _ => flushed9_eq m c t) cover9

/-! ## The run -/

/-- Every weakly fair execution of the kernel program terminates with the first result at the new membrane
    potentials and the second at the new spikes of the argument arrays, the arguments unchanged. -/
theorem run : θ_run defs (onTc (τ := τ) (main (F := Ideal))) ⟨m, fun _ => 0, ρ⟩ fun r => ∀ c : Dev nD,
      r.2.mem ((c : Thread nD τ).loc main_v0_0) = membraneArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_1) = firesArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2⟩)
    (run_blocks m ρ)

end Cert.Lif.Layer

end
-- ==== Proof.lean ====
/-
  One step of a layer of leaky integrate-and-fire neurons: a kernel that streams the samples through in 32 blocks
  of 1024, against the plain array program.

  For sample `b` and neuron `o`, with input spikes `x`, membrane potentials `v`, previous spikes `s`, dense weights
  and bias `Wd`, `bd`, recurrent weights and bias `Wr`, `br` and time constants `τ`, both programs compute
      d  = ((Σ_k x[b,k] · Wd[o,k]) + bd[o]) + (Σ_h s[b,h] · Wr[o,h]) + br[o]
      a  = exp(-1 / τ[o])
      v' = v[b,o] · a + (1 - a) · d - (1/2) · s[b,o]
      s' = 1 if v' - 1/2 > 0, else 0
  with the same operations in the same association, so the two results agree on the extended reals with no law of
  the reals used and no appeal to the inputs being finite. What differs is only the spelling:
  the kernel narrows the matrix products' operands to a shorter float format first (the identity on the extended
  reals) and accumulates each product into zeros, the reference contracts directly; the kernel turns the
  threshold bit into a number by widening it to a word and converting that as a signed integer, the reference
  converts the bit itself; and the kernel works on blocks of rows, which is sound because a sample's update
  reads only that sample's rows.

  `Neuron` states the law, element by element. `ReferenceLaw` reads the reference's operations at an index and
  finds the law. `KernelLaw` reads the kernel body's two stored values at an element of a block and finds the
  law of the blocks' rows. `Layer` goes from blocks to whole arrays: each point writes back its 1024 rows of the
  law of the whole arrays, and the 32 blocks cover them. Here the five claims are assembled: the two kernel
  programs' frames are their generated frame certificates, the reference's frame is its generated run with the
  results dropped, the idealization rewrote nothing, and the two idealized programs end at one and the same pair
  of arrays.
-/
import proofs.«100015_j49082886259318_1_alg».proof.Defs
import proofs.«100015_j49082886259318_1_alg».proof.Proof.Gen.Kernel
import proofs.«100015_j49082886259318_1_alg».proof.Proof.Gen.Kernel.Skeleton
import proofs.«100015_j49082886259318_1_alg».proof.Proof.Gen.Kernel.Launch
import proofs.«100015_j49082886259318_1_alg».proof.Proof.Gen.Kernel.Points
import proofs.«100015_j49082886259318_1_alg».proof.Proof.Gen.Kernel.Frame
import proofs.«100015_j49082886259318_1_alg».proof.Proof.Gen.KernelIdeal
import proofs.«100015_j49082886259318_1_alg».proof.Proof.Gen.KernelIdeal.Skeleton
import proofs.«100015_j49082886259318_1_alg».proof.Proof.Gen.KernelIdeal.Launch
import proofs.«100015_j49082886259318_1_alg».proof.Proof.Gen.KernelIdeal.Points
import proofs.«100015_j49082886259318_1_alg».proof.Proof.Gen.KernelIdeal.Frame
import proofs.«100015_j49082886259318_1_alg».proof.Proof.Gen.ReferenceIdeal
import proofs.«100015_j49082886259318_1_alg».proof.Proof.Gen.Pre_finite_inputs
import proofs.«100015_j49082886259318_1_alg».proof.Proof.Gen.KernelIdeal.Value
import proofs.«100015_j49082886259318_1_alg».proof.Proof.Gen.ReferenceIdeal.Run
import proofs.«100015_j49082886259318_1_alg».proof.Proof.Gen.ReferenceIdeal.Read
import proofs.«100015_j49082886259318_1_alg».proof.Proof.Neuron
import proofs.«100015_j49082886259318_1_alg».proof.Proof.ReferenceLaw
import proofs.«100015_j49082886259318_1_alg».proof.Proof.KernelLaw
import proofs.«100015_j49082886259318_1_alg».proof.Proof.Layer
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference program runs and leaves its arguments as they were: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the eight arguments both idealized programs end with the first result at the
    new membrane potentials and the second at the new spikes of those arguments. -/
theorem algebraic : Cert.algebraic_KernelIdeal_ReferenceIdeal := by
  intro m ρ m' ρ' _ hagree
  refine ⟨fun c => Cert.Lif.membraneArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Lif.firesArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.Lif.Layer.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [Cert.ReferenceIdeal.Read.val_main_v23_eq, Cert.Lif.Reference.membrane_eq, a0, a1, a2, a3, a4, a5, a6, a7]
  · obtain ⟨a0, a1, a2, a3, a4, a5, a6, a7⟩ := hagree c
    rw [Cert.ReferenceIdeal.Read.val_main_v28_eq, Cert.Lif.Reference.fires_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
